-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x256 : Shape := ⟨2, ![4096, 256]⟩
abbrev S256x4096 : Shape := ⟨2, ![256, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x256 .f32) (main_arg2 : FVec F S256x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x256 : Shape := ⟨2, ![4096, 256]⟩
abbrev S256x4096 : Shape := ⟨2, ![256, 4096]⟩
abbrev S4096 : Shape := ⟨1, ![4096]⟩
abbrev S256x256 : Shape := ⟨2, ![256, 256]⟩
abbrev S1x4096 : Shape := ⟨2, ![1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x256, .f32⟩
  | .hbm, ⟨2, _⟩ => ⟨S256x4096, .f32⟩
  | .hbm, ⟨3, _⟩ => ⟨S4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S4096x256, .f32⟩
  | .local _ .vmem, ⟨4, _⟩ => ⟨S4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  dot_S256x4096_S256x4096_S256x256_1_1_0_0_n_n_wf : DotDims.WF S256x4096 S256x4096 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .f32 = 32 ∨ (Rect.block (s := S256x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x256 : Shape := ⟨2, ![4096, 256]⟩
abbrev S256x4096 : Shape := ⟨2, ![256, 4096]⟩
abbrev S4096 : Shape := ⟨1, ![4096]⟩
abbrev S4096x4096 : Shape := ⟨2, ![4096, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x256, .f32⟩
  | .hbm, ⟨2, _⟩ => ⟨S256x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x256_S256x4096_S4096x4096_1_0_0_1_n_n_wf : DotDims.WF S4096x256 S256x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LowRankSpec.lean ====
/-
  The low-rank linear layer as one function of its four arrays, in the two arrangements the programs use, and the law
  that joins them.

  With x : [8192, 4096], u : [4096, 256], v : [256, 4096], b : [4096], the layer's entry at (t, o) is
  b o + Σ_k x t k · W o k for the product W o k = Σ_r u o r · v r k. The FACTORED arrangement first forms the
  rank-256 intermediate h t r = Σ_k x t k · v r k and then Σ_r h t r · u o r; the MATERIALISED arrangement first
  forms W. Over the reals the two are equal by distributing each product over the other sum and exchanging the two
  finite sums. On the extended reals distributivity fails at the infinities, so the law is stated for arrays
  whose entries are all real numbers.
-/
import Idealize.ShloMosaic.PureOps.Ideal.Laws
import Idealize.ShloMosaic.Lib.ValueIdx

noncomputable section

namespace Cert.LowRank

open Idealize.ShloMosaic Idealize.ShloMosaic.ValueIdx

/-- The coercion of the reals into the extended reals commutes with a finite sum. -/
theorem coe_finsum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Reassociating a triple product of real-valued families: summing the rank index last or first gives the same
    number, Σ_r (Σ_k x k · v r k) · u r = Σ_k x k · Σ_r u r · v r k. -/
theorem sum_factored_eq_materialised {K R : Type} [Fintype K] [Fintype R] (x : K → EReal) (v : R → K → EReal) (u : R → EReal)
    (hx : ∀ k, ∃ a : ℝ, x k = a) (hv : ∀ r k, ∃ a : ℝ, v r k = a) (hu : ∀ r, ∃ a : ℝ, u r = a) :
    ∑ r, (∑ k, x k * v r k) * u r = ∑ k, x k * ∑ r, u r * v r k := by
  choose x' hx' using hx
  choose v' hv' using hv
  choose u' hu' using hu
  simp only [hx', hv', hu', ← EReal.coe_mul, ← coe_finsum]
  refine congrArg _ ?_
  simp only [Finset.sum_mul, Finset.mul_sum]
  rw [Finset.sum_comm]
  refine Finset.sum_congr rfl fun k _ => Finset.sum_congr rfl fun r _ => ?_
  ring

/-- The layer in the factored arrangement: the rank-256 intermediate first. -/
def factored (x : (⟨2, ![8192, 4096]⟩ : Shape).Idx → EReal) (u : (⟨2, ![4096, 256]⟩ : Shape).Idx → EReal)
    (v : (⟨2, ![256, 4096]⟩ : Shape).Idx → EReal) (b : (⟨1, ![4096]⟩ : Shape).Idx → EReal) :
    (⟨2, ![8192, 4096]⟩ : Shape).Idx → EReal :=
  fun i => (∑ r : Fin 256, (∑ k : Fin 4096, x (ix2 (i 0 : Fin 8192) k) * v (ix2 r k)) * u (ix2 (i 1 : Fin 4096) r)) + b (ix1 (i 1 : Fin 4096))

/-- The layer in the materialised arrangement: the [4096, 4096] product of the two factors first. -/
def materialised (x : (⟨2, ![8192, 4096]⟩ : Shape).Idx → EReal) (u : (⟨2, ![4096, 256]⟩ : Shape).Idx → EReal)
    (v : (⟨2, ![256, 4096]⟩ : Shape).Idx → EReal) (b : (⟨1, ![4096]⟩ : Shape).Idx → EReal) :
    (⟨2, ![8192, 4096]⟩ : Shape).Idx → EReal :=
  fun i => (∑ k : Fin 4096, x (ix2 (i 0 : Fin 8192) k) * ∑ r : Fin 256, u (ix2 (i 1 : Fin 4096) r) * v (ix2 r k)) + b (ix1 (i 1 : Fin 4096))

/-- On arrays of real numbers the two arrangements are one function. -/
theorem materialised_eq_factored (x : (⟨2, ![8192, 4096]⟩ : Shape).Idx → EReal) (u : (⟨2, ![4096, 256]⟩ : Shape).Idx → EReal)
    (v : (⟨2, ![256, 4096]⟩ : Shape).Idx → EReal) (b : (⟨1, ![4096]⟩ : Shape).Idx → EReal)
    (hx : ∀ i, ∃ a : ℝ, x i = a) (hu : ∀ i, ∃ a : ℝ, u i = a) (hv : ∀ i, ∃ a : ℝ, v i = a) :
    materialised x u v b = factored x u v b := by
  funext i
  unfold materialised factored
  refine congrArg (· + b (ix1 (i 1 : Fin 4096))) ?_
  exact (sum_factored_eq_materialised (fun k : Fin 4096 => x (ix2 (i 0 : Fin 8192) k)) (fun (r : Fin 256) (k : Fin 4096) => v (ix2 r k))
    (fun r : Fin 256 => u (ix2 (i 1 : Fin 4096) r)) (fun k => hx _) (fun r k => hv _) (fun r => hu _)).symm

end Cert.LowRank

end
-- ==== Proof.FiniteInputs.lean ====
/-
  The precondition read back: every entry of the four argument arrays is a real number.

  The precondition is the conjunction, over the four arrays, of "all entries satisfy |a| < +∞", each "all" a reduction
  by "and" from the constant true into a single word. The conjunction being true gives each reduction true, a true
  reduction by "and" gives every compared entry true, and an extended real whose absolute value max a (−a) lies
  strictly below +∞ is neither infinity: it is a real number.
-/
import proofs.«138776_j35192962023845_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- The rank-0 shape has one index. -/
instance : Subsingleton S_.Idx := ⟨fun a b => funext fun d => d.elim0⟩

/-- The word with all exponent bits set and no fraction bit denotes +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ a : ℝ, x = a := by
  induction x using EReal.rec with
  | bot => simp at h
  | coe a => exact ⟨a, rfl⟩
  | top => simp at h

/-- The ordered "less than" comparison answering true is the strict order. -/
theorem lt_of_cmp_olt (x y : EReal) (h : Ideal.cmp .olt x y = 1#1) : x < y := by
  unfold Ideal.cmp at h
  by_contra hn
  simp [hn] at h

/-- One entry: the comparison of its absolute value with the +∞ word answering true makes it a real number. -/
theorem real_of_entry (x : EReal) (h : Ideal.cmp .olt (max x (-x)) (Ideal.ofBits .f32 0x7F800000#32) = 1#1) : ∃ a : ℝ, x = a := by
  rw [inf_word] at h
  exact real_of_abs_lt_top x (lt_of_cmp_olt _ _ h)

/-- Under the precondition every entry of every argument array is a real number. -/
theorem real_of_pre (a0 : FVec Ideal S8192x4096 .f32) (a1 : FVec Ideal S4096x256 .f32) (a2 : FVec Ideal S256x4096 .f32) (a3 : FVec Ideal S4096 .f32)
    (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_entry _ (Host.reduce_andi_all _ _ _ _ _ h0' i),
    fun i => real_of_entry _ (Host.reduce_andi_all _ _ _ _ _ h1 i),
    fun i => real_of_entry _ (Host.reduce_andi_all _ _ _ _ _ h2 i),
    fun i => real_of_entry _ (Host.reduce_andi_all _ _ _ _ _ h3 i)⟩

end Cert.Pre_finite_inputs.Finite

end
-- ==== Proof.BodyValue.lean ====
/-
  What the kernel body computes from its four loaded blocks, entry by entry, on the extended reals.

  The body loads a [256, 4096] block of x, the whole of v ([256, 4096]), the whole of u ([4096, 256]) and the whole
  bias ([4096]). On the extended reals the changes of float format are the identity, so its first matrix product,
  contracting the two operands' second axes into a zero accumulator, is h p r = Σ_k x p k · v r k; its second,
  contracting h's and u's second axes, is Σ_r h p r · u q r; and the bias, cast to one row and laid along every row,
  adds bias q. The stored entry at (p, q) is therefore Σ_r (Σ_k x p k · v r k) · u q r + bias q.
-/
import proofs.«138776_j35192962023845_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The first product: both operands [256, 4096], their second axes contracted -/

theorem lhs_first_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_first_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhs_first_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_first_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- Entry (p, r) of the first product into a zero accumulator: row p of the left operand against row r of the right. -/
theorem first_apply (a : FVec Ideal S256x4096 .bf16) (b : FVec Ideal S256x4096 .bf16) (p r : Fin 256) :
    matmul dot_S256x4096_S256x4096_S256x256_1_1_0_0_n_n none a b (constant S256x256 .f32 0x00000000#32) (ix2 p r)
      = ∑ k : Fin 4096, a (ix2 p k) * b (ix2 r k) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p r) ((contrEquiv1 dot_S256x4096_S256x4096_S256x256_1_1_0_0_n_n 4096 rfl rfl).symm k) = ix2 p k := funext fun ax => Fin.ext (by
    match ax with
    | ⟨0, _⟩ => exact lhs_first_0 _ _
    | ⟨1, _⟩ => exact (lhs_first_1 _ _).trans hk)
  have er : dot_S256x4096_S256x4096_S256x256_1_1_0_0_n_n.rhsIdx (ix2 p r) ((contrEquiv1 dot_S256x4096_S256x4096_S256x256_1_1_0_0_n_n 4096 rfl rfl).symm k) = ix2 r k := funext fun ax => Fin.ext (by
    match ax with
    | ⟨0, _⟩ => exact rhs_first_0 _ _
    | ⟨1, _⟩ => exact (rhs_first_1 _ _).trans hk)
  rw [el, er]

/-! ## The second product: [256, 256] against [4096, 256], their second axes contracted -/

theorem lhs_second_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem lhs_second_1 (i : S256x4096.Idx) (q : dot_S256x256_S4096x256_S256x4096_1_1_0_0_n_n.contr.Idx) :
    (dot_S256x256_S4096x256_S256x4096_1_1_0_0_n_n.lhsIdx i q 1).val = (q ⟨0, by decide⟩).val :=
  dot_S256x256_S4096x256_S256x4096_1_1_0_0_n_n.lhsIdx_val_of_single rfl i q
theorem rhs_second_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem rhs_second_1 (i : S256x4096.Idx) (q : dot_S256x256_S4096x256_S256x4096_1_1_0_0_n_n.contr.Idx) :
    (dot_S256x256_S4096x256_S256x4096_1_1_0_0_n_n.rhsIdx i q 1).val = (q ⟨0, by decide⟩).val :=
  dot_S256x256_S4096x256_S256x4096_1_1_0_0_n_n.rhsIdx_val_of_single rfl i q

/-- Entry (p, q) of the second product into a zero accumulator: row p of the left operand against row q of the right. -/
theorem second_apply (a : FVec Ideal S256x256 .bf16) (b : FVec Ideal S4096x256 .bf16) (p : Fin 256) (q : Fin 4096) :
    matmul dot_S256x256_S4096x256_S256x4096_1_1_0_0_n_n none a b (constant S256x4096 .f32 0x00000000#32) (ix2 p q)
      = ∑ r : Fin 256, a (ix2 p r) * b (ix2 q r) := by
  simp only [matmul]
  rw [Ideal.matmul_constant_zero_apply, ← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 p q) ((contrEquiv1 dot_S256x256_S4096x256_S256x4096_1_1_0_0_n_n 256 rfl rfl).symm k) = ix2 p k := funext fun ax => Fin.ext (by
    match ax with
    | ⟨0, _⟩ => exact lhs_second_0 _ _
    | ⟨1, _⟩ => exact (lhs_second_1 _ _).trans hk)
  have er : dot_S256x256_S4096x256_S256x4096_1_1_0_0_n_n.rhsIdx (ix2 p q) ((contrEquiv1 dot_S256x256_S4096x256_S256x4096_1_1_0_0_n_n 256 rfl rfl).symm k) = ix2 q k := funext fun ax => Fin.ext (by
    match ax with
    | ⟨0, _⟩ => exact rhs_second_0 _ _
    | ⟨1, _⟩ => exact (rhs_second_1 _ _).trans hk)
  rw [el, er]

/-! ## The bias laid along every row -/

/-- The bias cast to one row and broadcast down the 256 rows reads, at (p, q), the bias at q. -/
theorem bias_apply (b : FVec Ideal S4096 .f32) (p : Fin 256) (q : Fin 4096) :
    broadcastTo S256x4096 (shapeCast S1x4096 b shapeCasts_S4096_S1x4096) broadcasts_S1x4096_S256x4096 (ix2 p q) = b (ix1 q) := by
  rw [broadcastTo_1b_ab_apply]
  refine shapeCast_apply b shapeCasts_S4096_S1x4096 (ix2 (0 : Fin 1) q) (ix1 q) ?_
  rw [Shape.rowMajor_val_two, Shape.rowMajor_val_one]
  show q.val = 0 * 4096 + q.val
  omega

/-! ## The stored entry -/

/-- The body's one stored value at (p, q), from the four loaded blocks. -/
theorem payload_apply (x0 : FVec Ideal S256x4096 .f32) (x1 : FVec Ideal S256x4096 .f32) (x2 : FVec Ideal S4096x256 .f32)
    (x3 : FVec Ideal S4096 .f32) (p : Fin 256) (q : Fin 4096) :
    k0_pay1 (F := Ideal) x0 x1 x2 x3 (ix2 p q)
      = (∑ r : Fin 256, (∑ k : Fin 4096, x0 (ix2 p k) * x1 (ix2 r k)) * x2 (ix2 q r)) + x3 (ix1 q) := by
  unfold k0_pay1
  refine (addf_apply _ _ _).trans ?_
  refine congrArg₂ (· + ·) ?_ (bias_apply x3 p q)
  refine (second_apply _ _ p q).trans ?_
  refine Finset.sum_congr rfl fun r _ => ?_
  refine congrArg₂ (· * ·) ?_ rfl
  exact first_apply _ _ p r

end Cert.KernelIdeal.Body

end
-- ==== Proof.KernelValue.lean ====
/-
  The kernel's result array after the run is the layer in the factored arrangement.

  The grid has 32 points; point t stages rows 256·t … 256·t + 255 of x, the whole of v, u and the bias, and writes
  back rows 256·t … 256·t + 255 of the result. The body's stored entry at (p, q) of its block is
  Σ_r (Σ_k x (256·t + p) k · v r k) · u q r + bias q, which is entry (256·t + p, q) of the factored layer: so each
  point writes back its block of ONE whole-array function, and the 32 blocks of 256 rows cover the 8192 rows.
-/
import proofs.«138776_j35192962023845_1_alg».proof.Proof.Gen.KernelIdeal.Value
import proofs.«138776_j35192962023845_1_alg».proof.Proof.BodyValue
import proofs.«138776_j35192962023845_1_alg».proof.Proof.LowRankSpec

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The layer, factored, of the four argument arrays as the region finds them. -/
abbrev layer (c : Dev nD) : S8192x4096.Idx → EReal :=
  Cert.LowRank.factored (Gen.V m c main_arg0) (Gen.V m c main_arg1) (Gen.V m c main_arg2) (Gen.V m c main_arg3)

/-- The body's stored entry is the factored layer's, once its loaded blocks are known to be rows of x from the
    output entry's own row on, and the other three arrays whole. -/
theorem entry_eq (X : S8192x4096.Idx → EReal) (Uw : S4096x256.Idx → EReal) (Vw : S256x4096.Idx → EReal) (Bw : S4096.Idx → EReal)
    (x0 : FVec Ideal S256x4096 .f32) (x1 : FVec Ideal S256x4096 .f32) (x2 : FVec Ideal S4096x256 .f32) (x3 : FVec Ideal S4096 .f32)
    (p : Fin 256) (q : Fin 4096) (i : S8192x4096.Idx) (hq : (i 1 : Fin 4096) = q)
    (h0 : ∀ k : Fin 4096, x0 (ix2 p k) = X (ix2 (i 0 : Fin 8192) k))
    (h1 : ∀ y, x1 y = Vw y) (h2 : ∀ y, x2 y = Uw y) (h3 : ∀ y, x3 y = Bw y) :
    k0_pay1 (F := Ideal) x0 x1 x2 x3 (ix2 p q) = Cert.LowRank.factored X Uw Vw Bw i := by
  obtain rfl : x1 = Vw := funext h1
  obtain rfl : x2 = Uw := funext h2
  obtain rfl : x3 = Bw := funext h3
  rw [Cert.KernelIdeal.Body.payload_apply]
  unfold Cert.LowRank.factored
  simp only [h0, hq]

/-- The printed index maps over the 32 points: x's and the result's blocks are block t of their rows, the other
    three windows stay on their one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- WHAT POINT t WRITES BACK is block t of the factored layer. -/
theorem flushed_eq (c : Dev nD) (t : Fin cfg0.N) :
    (dats m 0 c).flushed 4 t = ((cfg0.win 4).blk t).view.read (Elt Ideal) (layer m c) := by
  rw [Value.flushed4]
  unfold out0_4
  rw [View.canon_unit_zero zero2]
  simp only [View.ld_unit_zero (S := S256x4096) zero2, View.ld_unit_zero (S := S4096x256) zero2, View.ld_unit_zero (S := S4096) zero1]
  obtain ⟨a0, a1, b0, b1, c0, c1, d0, e0, e1⟩ := index_facts t
  funext j
  obtain ⟨p, q, rfl⟩ : ∃ (p : Fin 256) (q : Fin 4096), j = ix2 p q := ⟨j 0, j 1, eq_ix2 j⟩
  show k0_pay1 (F := Ideal) (iblk m c 0 t) (iblk m c 1 t) (iblk m c 2 t) (iblk m c 3 t) (ix2 p q)
    = layer m c (((cfg0.win 4).blk t).view.emb (ix2 p q))
  refine entry_eq (Gen.V m c main_arg0) (Gen.V m c main_arg1) (Gen.V m c main_arg2) (Gen.V m c main_arg3) _ _ _ _ p q _ ?_ ?_ ?_ ?_ ?_
  · apply Fin.ext
    show win0_4.index t (1 : Fin 2) * 4096 + 1 * q.val = q.val
    rw [e1]; omega
  · intro k
    show Gen.V m c main_arg0 (((cfg0.win 0).blk t).view.emb (ix2 p k)) = Gen.V m c main_arg0 _
    refine congrArg _ (funext fun a => Fin.ext ?_)
    match a with
    | ⟨0, _⟩ => show win0_0.index t (0 : Fin 2) * 256 + 1 * p.val = win0_4.index t (0 : Fin 2) * 256 + 1 * p.val; rw [a0, e0]
    | ⟨1, _⟩ => show win0_0.index t (1 : Fin 2) * 4096 + 1 * k.val = k.val; rw [a1]; omega
  · intro y
    show Gen.V m c main_arg2 (((cfg0.win 1).blk t).view.emb y) = Gen.V m c main_arg2 y
    refine congrArg _ (funext fun a => Fin.ext ?_)
    match a with
    | ⟨0, _⟩ => show win0_1.index t (0 : Fin 2) * 256 + 1 * (y 0).val = (y 0).val; rw [b0]; omega
    | ⟨1, _⟩ => show win0_1.index t (1 : Fin 2) * 4096 + 1 * (y 1).val = (y 1).val; rw [b1]; omega
  · intro y
    show Gen.V m c main_arg1 (((cfg0.win 2).blk t).view.emb y) = Gen.V m c main_arg1 y
    refine congrArg _ (funext fun a => Fin.ext ?_)
    match a with
    | ⟨0, _⟩ => show win0_2.index t (0 : Fin 2) * 4096 + 1 * (y 0).val = (y 0).val; rw [c0]; omega
    | ⟨1, _⟩ => show win0_2.index t (1 : Fin 2) * 256 + 1 * (y 1).val = (y 1).val; rw [c1]; omega
  · intro y
    show Gen.V m c main_arg3 (((cfg0.win 3).blk t).view.emb y) = Gen.V m c main_arg3 y
    refine congrArg _ (funext fun a => Fin.ext ?_)
    match a with
    | ⟨0, _⟩ => show win0_3.index t (0 : Fin 1) * 4096 + 1 * (y 0).val = (y 0).val; rw [d0]; omega

/-- An index of the result array is in point t's block iff each coordinate is in the block's range on its axis. -/
theorem mem_block (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v0).slice (win0_4.rect t)).set ↔ _
  rw [View.set_slice_whole, Rect.mem_set_unit]
  exact Iff.rfl

/-- Row i of the result lies in the block of point i / 256. -/
theorem covered (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 32 := N_0
  let t : Fin cfg0.N := ⟨(i 0).val / 256, by rw [hN]; omega⟩
  obtain ⟨-, -, -, -, -, -, -, e0, e1⟩ := index_facts t
  have ht : t.val = (i 0).val / 256 := rfl
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 4096 ≤ (i 1).val ∧ (i 1).val < win0_4.index t (1 : Fin 2) * 4096 + 4096; rw [e1]; omega

/-- THE RESULT ARRAY after the run is the factored layer of the argument arrays. -/
theorem final (c : Dev nD) : (dats m 0 c).arrAt 4 cfg0.N = layer m c :=
  (dats m 0 c).arrAt_eq_of_cover 4 (layer m c) (fun t _ => flushed_eq m c t) covered

/-- The run, read: the result array at the factored layer of the arguments, the arguments unchanged. -/
theorem run : θ_run defs (onTc (τ := τ) (main (F := Ideal))) ⟨m, fun _ => 0, ρ⟩ fun r => ∀ c : Dev nD,
      r.2.mem ((c : Thread nD τ).loc main_v0) = Cert.LowRank.factored (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference program's result, entry by entry, is the layer in the materialised arrangement.

  The reference forms W = u · v as a [4096, 4096] product (entry (o, k) is Σ_r u o r · v r k), transposes it, takes
  x against the transpose (entry (t, o) is Σ_k x t k · Wᵀ k o = Σ_k x t k · W o k), and adds the bias broadcast
  first to one row and then down the rows. Reading each operation at an index and composing the index maps gives
  the materialised form at every index.
-/
import proofs.«138776_j35192962023845_1_alg».proof.Proof.Gen.ReferenceIdeal.Read
import proofs.«138776_j35192962023845_1_alg».proof.Proof.LowRankSpec

noncomputable section

namespace Cert.ReferenceIdeal.RefValue

open Cert.ReferenceIdeal Cert.ReferenceIdeal.Gen Cert.ReferenceIdeal.Read Idealize.ShloMosaic Idealize.ShloMosaic.ValueIdx

/-- The last stage of the reference is the materialised arrangement of the layer. -/
theorem result_eq (x0 : FVec Ideal S8192x4096 .f32) (x1 : FVec Ideal S4096x256 .f32) (x2 : FVec Ideal S256x4096 .f32)
    (x3 : FVec Ideal S4096 .f32) :
    val_main_v5 (F := Ideal) x0 x1 x2 x3 = Cert.LowRank.materialised x0 x1 x2 x3 := by
  funext i
  -- the composed index maps, coordinate by coordinate
  have ex : ∀ k : Fin 4096, lidx_main_v2 i k = ix2 (i 0 : Fin 8192) k := fun k => funext fun a => Fin.ext (by
    match a with | ⟨0, _⟩ => rfl | ⟨1, _⟩ => rfl)
  have eu : ∀ (k : Fin 4096) (r : Fin 256), lidx_main_v0 (idx_main_v1 (ridx_main_v2 i k)) r = ix2 (i 1 : Fin 4096) r :=
    fun k r => funext fun a => Fin.ext (by match a with | ⟨0, _⟩ => rfl | ⟨1, _⟩ => rfl)
  have ev : ∀ (k : Fin 4096) (r : Fin 256), ridx_main_v0 (idx_main_v1 (ridx_main_v2 i k)) r = ix2 r k :=
    fun k r => funext fun a => Fin.ext (by match a with | ⟨0, _⟩ => rfl | ⟨1, _⟩ => rfl)
  have eb : idx_main_v3 (idx_main_v4 i) = ix1 (i 1 : Fin 4096) := funext fun a => Fin.ext (by
    match a with | ⟨0, _⟩ => rfl)
  rw [val_main_v5_apply, val_main_v2_apply, val_main_v4_apply, val_main_v3_apply]
  simp only [val_main_v1_apply, val_main_v0_apply, ex, eu, ev, eb]
  rfl

end Cert.ReferenceIdeal.RefValue

end
-- ==== Proof.lean ====
/-
  The low-rank linear layer out = x · (u · v)ᵀ + bias, computed two ways.

  The kernel never forms the [4096, 4096] product u · v: for each block of 256 rows of x it computes the rank-256
  intermediate h = x · vᵀ and then h · uᵀ + bias. The reference forms W = u · v first and then x · Wᵀ + bias. On the
  extended reals the changes of float format in the kernel are the identity and both matrix products are plain finite
  sums, so the kernel's entry at (t, o) is Σ_r (Σ_k x t k · v r k) · u o r + bias o and the reference's is
  Σ_k x t k · (Σ_r u o r · v r k) + bias o. These agree by distributing each product over the other sum and exchanging
  the two sums, which is valid because the precondition makes every entry a real number (at an infinity
  distributivity fails on the extended reals).

  The pieces: the two arrangements and the law between them (LowRankSpec), the precondition read back as "every
  entry is real" (FiniteInputs), the kernel body's stored entry (BodyValue), the kernel's result array as the factored
  arrangement of the argument arrays (KernelValue), and the reference's result as the materialised one (RefValue).
  No operation of the kernel is rewritten for the reading on the extended reals: that reading is the kernel's own text.
-/
import proofs.«138776_j35192962023845_1_alg».proof.Defs
import proofs.«138776_j35192962023845_1_alg».proof.Proof.Gen.Kernel
import proofs.«138776_j35192962023845_1_alg».proof.Proof.Gen.Kernel.Skeleton
import proofs.«138776_j35192962023845_1_alg».proof.Proof.Gen.Kernel.Launch
import proofs.«138776_j35192962023845_1_alg».proof.Proof.Gen.Kernel.Points
import proofs.«138776_j35192962023845_1_alg».proof.Proof.Gen.Kernel.Frame
import proofs.«138776_j35192962023845_1_alg».proof.Proof.Gen.KernelIdeal
import proofs.«138776_j35192962023845_1_alg».proof.Proof.Gen.KernelIdeal.Skeleton
import proofs.«138776_j35192962023845_1_alg».proof.Proof.Gen.KernelIdeal.Launch
import proofs.«138776_j35192962023845_1_alg».proof.Proof.Gen.KernelIdeal.Points
import proofs.«138776_j35192962023845_1_alg».proof.Proof.Gen.KernelIdeal.Frame
import proofs.«138776_j35192962023845_1_alg».proof.Proof.Gen.ReferenceIdeal
import proofs.«138776_j35192962023845_1_alg».proof.Proof.Gen.Pre_finite_inputs
import proofs.«138776_j35192962023845_1_alg».proof.Proof.Gen.KernelIdeal.Value
import proofs.«138776_j35192962023845_1_alg».proof.Proof.Gen.ReferenceIdeal.Run
import proofs.«138776_j35192962023845_1_alg».proof.Proof.Gen.ReferenceIdeal.Read
import proofs.«138776_j35192962023845_1_alg».proof.Proof.LowRankSpec
import proofs.«138776_j35192962023845_1_alg».proof.Proof.FiniteInputs
import proofs.«138776_j35192962023845_1_alg».proof.Proof.KernelValue
import proofs.«138776_j35192962023845_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the same result: the kernel's array is the factored arrangement of the layer, the
    reference's the materialised one, and on arrays of real numbers (the precondition) the two are one function. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hu, hv, -⟩ := Cert.Pre_finite_inputs.Finite.real_of_pre _ _ _ _ (hpre c)
  rw [Cert.ReferenceIdeal.Read.val_main_v5_eq, Cert.ReferenceIdeal.RefValue.result_eq,
    (hagree c).1, (hagree c).2.1, (hagree c).2.2.1, (hagree c).2.2.2]
  exact Cert.LowRank.materialised_eq_factored _ _ _ _ hx hu hv

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
